-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x50257 : Shape := ⟨3, ![2, 2048, 50257]⟩
abbrev S2x2048 : Shape := ⟨2, ![2, 2048]⟩
abbrev S2x2048x8 : Shape := ⟨3, ![2, 2048, 8]⟩
abbrev S2 : Shape := ⟨1, ![2]⟩
abbrev S_ : Shape := ⟨0, ![]⟩

class Facts : Prop where
  bcast_S_S2x2048x50257 : S_.BroadcastsInDim S2x2048x50257 (![] : Fin 0 → Fin S2x2048x50257.rank)
  reducesTo_S2x2048x50257_S_d0_1_2 : S2x2048x50257.ReducesTo [0, 1, 2] S_
  h_S_ : 0 < S_.numel
  bcast_S_S2x2048x8 : S_.BroadcastsInDim S2x2048x8 (![] : Fin 0 → Fin S2x2048x8.rank)
  reducesTo_S2x2048x8_S_d0_1_2 : S2x2048x8.ReducesTo [0, 1, 2] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg2 : IVec S2x2048x8 32) (main_v13 : IVec S_ 1) (main_v15 : IVec S2x2048x8 1) (main_c_5 : IVec S_ 32) : IVec S_ 1 :=
  let main_v16 : IVec S2x2048x8 32 := broadcastInDim S2x2048x8 ![] bcast_S_S2x2048x8 main_c_5
  let main_v17 : IVec S2x2048x8 1 := cmpi .slt main_arg2 main_v16
  let main_v18 : IVec S2x2048x8 1 := andi main_v15 main_v17
  let main_c_6 : IVec S_ 1 := constantI S_ 1 1#1
  let main_v19 : IVec S_ 1 := (fun x v => Host.reduce IntOp.andi x v reducesTo_S2x2048x8_S_d0_1_2 h_S_) main_v18 main_c_6
  let main_v20 : IVec S_ 1 := andi main_v13 main_v19
  main_v20

def fn {F : FTy → Type} [FloatOps F] (main_arg0 : FVec F S2x2048x50257 .f32) (main_arg1 : IVec S2x2048 32) (main_arg2 : IVec S2x2048x8 32) (main_arg3 : FVec F S2x2048x8 .f32) (main_arg4 : FVec F S2x2048 .f32) (main_arg5 : IVec S2 32) : IVec S_ 1 :=
  let main_v0 : FVec F S2x2048x50257 .f32 := Host.absf main_arg0
  let main_cst : FVec F S_ .f32 := constant S_ .f32 0x7F800000#32
  let main_v1 : FVec F S2x2048x50257 .f32 := broadcastInDim S2x2048x50257 ![] bcast_S_S2x2048x50257 main_cst
  let main_v2 : IVec S2x2048x50257 1 := cmpf .olt main_v0 main_v1
  let main_c : IVec S_ 1 := constantI S_ 1 1#1
  let main_v3 : IVec S_ 1 := (fun x v => Host.reduce IntOp.andi x v reducesTo_S2x2048x50257_S_d0_1_2 h_S_) main_v2 main_c
  let main_v4 : FVec F S2x2048x8 .f32 := Host.absf main_arg3
  let main_cst_0 : FVec F S_ .f32 := constant S_ .f32 0x7F800000#32
  let main_v5 : FVec F S2x2048x8 .f32 := broadcastInDim S2x2048x8 ![] bcast_S_S2x2048x8 main_cst_0
  let main_v6 : IVec S2x2048x8 1 := cmpf .olt main_v4 main_v5
  let main_c_1 : IVec S_ 1 := constantI S_ 1 1#1
  let main_v7 : IVec S_ 1 := (fun x v => Host.reduce IntOp.andi x v reducesTo_S2x2048x8_S_d0_1_2 h_S_) main_v6 main_c_1
  let main_v8 : IVec S_ 1 := andi main_v3 main_v7
  let main_v9 : FVec F S2x2048 .f32 := Host.absf main_arg4
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_c_4 : IVec S_ 32 := constantI S_ 32 0#32
  let main_v14 : IVec S2x2048x8 32 := broadcastInDim S2x2048x8 ![] bcast_S_S2x2048x8 main_c_4
  let main_v15 : IVec S2x2048x8 1 := cmpi .sge main_arg2 main_v14
  let main_c_5 : IVec S_ 32 := constantI S_ 32 50257#32
  fn_part1 (F := F) main_arg2 main_v13 main_v15 main_c_5
-- ==== Kernel.lean ====
abbrev S2x2048x50257 : Shape := ⟨3, ![2, 2048, 50257]⟩
abbrev S2x2048 : Shape := ⟨2, ![2, 2048]⟩
abbrev S2x2048x8 : Shape := ⟨3, ![2, 2048, 8]⟩
abbrev S2 : Shape := ⟨1, ![2]⟩
abbrev S4096x50257 : Shape := ⟨2, ![4096, 50257]⟩
abbrev S4096x8 : Shape := ⟨2, ![4096, 8]⟩
abbrev S32x50257 : Shape := ⟨2, ![32, 50257]⟩
abbrev S32x8 : Shape := ⟨2, ![32, 8]⟩
abbrev S32 : Shape := ⟨1, ![32]⟩
abbrev S32x1 : Shape := ⟨2, ![32, 1]⟩
abbrev S_ : Shape := ⟨0, ![]⟩
abbrev S2x2048x1 : Shape := ⟨3, ![2, 2048, 1]⟩

abbrev nBuf : Space → Nat
  | .hbm => 39
  | .vmem => 6
  | .smem => 0
  | _ => 0

abbrev bufTy : (tb : Table) → Fin (tcTables nBuf tb) → BufTy
  | .hbm, ⟨0, _⟩ => ⟨S2x2048x50257, .f32⟩
  | .hbm, ⟨1, _⟩ => ⟨S2x2048, .i32⟩
  | .hbm, ⟨2, _⟩ => ⟨S2x2048x8, .i32⟩
  | .hbm, ⟨3, _⟩ => ⟨S2x2048x8, .f32⟩
  | .hbm, ⟨4, _⟩ => ⟨S2x2048, .f32⟩
  | .hbm, ⟨5, _⟩ => ⟨S2, .i32⟩
  | .hbm, ⟨6, _⟩ => ⟨S4096x50257, .f32⟩
  | .hbm, ⟨7, _⟩ => ⟨S4096x8, .i32⟩
  | .hbm, ⟨8, _⟩ => ⟨S4096x8, .f32⟩
  | .hbm, ⟨9, _⟩ => ⟨S2x2048x8, .f32⟩
  | .hbm, ⟨10, _⟩ => ⟨S2x2048x8, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S2x2048x8, .f32⟩
  | .hbm, ⟨22, _⟩ => ⟨S2x2048x8, .f32⟩
  | .hbm, ⟨23, _⟩ => ⟨S_, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S2, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x8, .i32⟩
  | .local _ .vmem, ⟨3, _⟩ => ⟨S32x8, .i32⟩
  | .local _ .vmem, ⟨4, _⟩ => ⟨S32x8, .f32⟩
  | .local _ .vmem, ⟨5, _⟩ => ⟨S32x8, .f32⟩
  | _, _ => ⟨S2x2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x2048x50257_S4096x50257 : S2x2048x50257.ShapeCasts S4096x50257
  shapeCasts_S2x2048x8_S4096x8 : S2x2048x8.ShapeCasts S4096x8
  inb_S32x50257_S32x50257_0_0 : ∀ a, (![0, 0] : Fin 2 → Nat) a + S32x50257.size a ≤ S32x50257.size a
  h_S32x50257 : 0 < S32x50257.numel
  shapeCasts_S32x50257_S32x50257 : S32x50257.ShapeCasts S32x50257
  reduces_S32x50257_S32 : S32x50257.Reduces [1] S32
  shapeCasts_S32_S32x1 : S32.ShapeCasts S32x1
  broadcasts_S32x1_S32x50257 : S32x1.Broadcasts S32x50257
  inb_S32x8_S32x8_0_0 : ∀ a, (![0, 0] : Fin 2 → Nat) a + S32x8.size a ≤ S32x8.size a
  h_S32x8 : 0 < S32x8.numel
  shapeCasts_S32x8_S32x8 : S32x8.ShapeCasts S32x8
  iota_S32x50257_d1_w32 : S32x50257.Iotas .tc 32 [1]
  slices_S32x8_o0_0_S32x1 : S32x8.Slices ![0, 0] S32x1
  slices_S32x8_o0_1_S32x1 : S32x8.Slices ![0, 1] S32x1
  slices_S32x8_o0_2_S32x1 : S32x8.Slices ![0, 2] S32x1
  slices_S32x8_o0_3_S32x1 : S32x8.Slices ![0, 3] S32x1
  slices_S32x8_o0_4_S32x1 : S32x8.Slices ![0, 4] S32x1
  slices_S32x8_o0_5_S32x1 : S32x8.Slices ![0, 5] S32x1
  slices_S32x8_o0_6_S32x1 : S32x8.Slices ![0, 6] S32x1
  slices_S32x8_o0_7_S32x1 : S32x8.Slices ![0, 7] S32x1
  concatenates_S32x1_S32x1_S32x1_S32x1_S32x1_S32x1_S32x1_S32x1_S32x8_d1 : Shape.Concatenates [S32x1, S32x1, S32x1, S32x1, S32x1, S32x1, S32x1, S32x1] S32x8 1
  shapeCasts_S4096x8_S2x2048x8 : S4096x8.ShapeCasts S2x2048x8
  reducesTo_S2x2048x8_S2x2048_d2 : S2x2048x8.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x8_0_1_2 : S2x2048x1.BroadcastsInDim S2x2048x8 (![0, 1, 2] : Fin 3 → Fin S2x2048x8.rank)
  reducesTo_S2x2048_S2_d1 : S2x2048.ReducesTo [1] S2
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S4096x8.size a
  hwx0_1 : ∀ i : grid0.Coords, EltTy.bits .i32 = 32 ∨ (Rect.block (s := S4096x8) S32x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8.size a ≤ S4096x8.size a
  hwx0_2 : ∀ i : grid0.Coords, EltTy.bits .f32 = 32 ∨ (Rect.block (s := S4096x8) S32x8.size (cc0_transform_2 i) (hinb0_2 i)).WholeWords (EltTy.packing .f32)

variable [Facts₀]

abbrev win0_0 : Pipeline.Window sig grid0 :=
  Pipeline.Window.ofSpec (Memref.whole main_v0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x50257 : Shape := ⟨3, ![2, 2048, 50257]⟩
abbrev S2x2048 : Shape := ⟨2, ![2, 2048]⟩
abbrev S2x2048x8 : Shape := ⟨3, ![2, 2048, 8]⟩
abbrev S2 : Shape := ⟨1, ![2]⟩
abbrev S_ : Shape := ⟨0, ![]⟩
abbrev S2x2048x1 : Shape := ⟨3, ![2, 2048, 1]⟩
abbrev S2x2048x8x1 : Shape := ⟨4, ![2, 2048, 8, 1]⟩
abbrev S1 : Shape := ⟨1, ![1]⟩
abbrev S1x1x1x1 : Shape := ⟨4, ![1, 1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x50257, .f32⟩
  | .hbm, ⟨1, _⟩ => ⟨S2x2048, .i32⟩
  | .hbm, ⟨2, _⟩ => ⟨S2x2048x8, .i32⟩
  | .hbm, ⟨3, _⟩ => ⟨S2x2048x8, .f32⟩
  | .hbm, ⟨4, _⟩ => ⟨S2x2048, .f32⟩
  | .hbm, ⟨5, _⟩ => ⟨S2, .i32⟩
  | .hbm, ⟨6, _⟩ => ⟨S_, .f32⟩
  | .hbm, ⟨7, _⟩ => ⟨S2x2048x50257, .f32⟩
  | .hbm, ⟨8, _⟩ => ⟨S2x2048x50257, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048x1, .f32⟩
  | .hbm, ⟨15, _⟩ => ⟨S2x2048x50257, .f32⟩
  | .hbm, ⟨16, _⟩ => ⟨S2x2048x50257, .f32⟩
  | .hbm, ⟨17, _⟩ => ⟨S2x2048x50257, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S2x2048x1, .f32⟩
  | .hbm, ⟨22, _⟩ => ⟨S2x2048x50257, .f32⟩
  | .hbm, ⟨23, _⟩ => ⟨S2x2048x50257, .f32⟩
  | .hbm, ⟨24, _⟩ => ⟨S_, .i32⟩
  | .hbm, ⟨25, _⟩ => ⟨S2x2048x8, .i32⟩
  | .hbm, ⟨26, _⟩ => ⟨S2x2048x8, .i1⟩
  | .hbm, ⟨27, _⟩ => ⟨S_, .i32⟩
  | .hbm, ⟨28, _⟩ => ⟨S2x2048x8, .i32⟩
  | .hbm, ⟨29, _⟩ => ⟨S2x2048x8, .i32⟩
  | .hbm, ⟨30, _⟩ => ⟨S2x2048x8, .i32⟩
  | .hbm, ⟨31, _⟩ => ⟨S2x2048x8x1, .i32⟩
  | .hbm, ⟨32, _⟩ => ⟨S1, .i32⟩
  | .hbm, ⟨33, _⟩ => ⟨S_, .i32⟩
  | .hbm, ⟨34, _⟩ => ⟨S2x2048x8x1, .i32⟩
  | .hbm, ⟨35, _⟩ => ⟨S2x2048x8x1, .i1⟩
  | .hbm, ⟨36, _⟩ => ⟨S1x1x1x1, .i32⟩
  | .hbm, ⟨37, _⟩ => ⟨S2x2048x8x1, .i32⟩
  | .hbm, ⟨38, _⟩ => ⟨S2x2048x8x1, .i1⟩
  | .hbm, ⟨39, _⟩ => ⟨S2x2048x8x1, .i1⟩
  | .hbm, ⟨40, _⟩ => ⟨S_, .i1⟩
  | .hbm, ⟨41, _⟩ => ⟨S2x2048x8, .i1⟩
  | .hbm, ⟨42, _⟩ => ⟨S2x2048x8, .f32⟩
  | .hbm, ⟨43, _⟩ => ⟨S_, .f32⟩
  | .hbm, ⟨44, _⟩ => ⟨S2x2048x8, .f32⟩
  | .hbm, ⟨45, _⟩ => ⟨S2x2048x8, .f32⟩
  | .hbm, ⟨46, _⟩ => ⟨S2x2048x8, .f32⟩
  | .hbm, ⟨47, _⟩ => ⟨S_, .f32⟩
  | .hbm, ⟨48, _⟩ => ⟨S2x2048, .f32⟩
  | .hbm, ⟨49, _⟩ => ⟨S2x2048x1, .f32⟩
  | .hbm, ⟨50, _⟩ => ⟨S_, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x8, .f32⟩
  | .hbm, ⟨55, _⟩ => ⟨S2x2048x8, .f32⟩
  | .hbm, ⟨56, _⟩ => ⟨S2x2048x8, .f32⟩
  | .hbm, ⟨57, _⟩ => ⟨S2x2048x8, .f32⟩
  | .hbm, ⟨58, _⟩ => ⟨S2x2048x8, .f32⟩
  | .hbm, ⟨59, _⟩ => ⟨S_, .f32⟩
  | .hbm, ⟨60, _⟩ => ⟨S2x2048, .f32⟩
  | .hbm, ⟨61, _⟩ => ⟨S2x2048, .f32⟩
  | .hbm, ⟨62, _⟩ => ⟨S_, .f32⟩
  | .hbm, ⟨63, _⟩ => ⟨S2, .f32⟩
  | .hbm, ⟨64, _⟩ => ⟨S_, .f32⟩
  | .hbm, ⟨65, _⟩ => ⟨S2, .f32⟩
  | .hbm, ⟨66, _⟩ => ⟨S_, .f32⟩
  | .hbm, ⟨67, _⟩ => ⟨S_, .f32⟩
  | .hbm, ⟨68, _⟩ => ⟨S2, .f32⟩
  | .hbm, ⟨69, _⟩ => ⟨S2, .f32⟩
  | .hbm, ⟨70, _⟩ => ⟨S2, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S2x2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_cst_0 : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_cst_2 : Ref sig .tc := ⟨.hbm, 59, rfl⟩
abbrev main_v13 : Ref sig .tc := ⟨.hbm, 60, rfl⟩
abbrev main_v14 : Ref sig .tc := ⟨.hbm, 61, rfl⟩
abbrev main_cst_3 : Ref sig .tc := ⟨.hbm, 62, rfl⟩
abbrev main_v15 : Ref sig .tc := ⟨.hbm, 63, rfl⟩
abbrev main_cst_4 : Ref sig .tc := ⟨.hbm, 64, rfl⟩
abbrev main_v16 : Ref sig .tc := ⟨.hbm, 65, rfl⟩
abbrev main_cst_5 : Ref sig .tc := ⟨.hbm, 66, rfl⟩
abbrev main_call3_v0 : Ref sig .tc := ⟨.hbm, 67, rfl⟩
abbrev main_call3_v1 : Ref sig .tc := ⟨.hbm, 68, rfl⟩
abbrev main_v17 : Ref sig .tc := ⟨.hbm, 69, rfl⟩
abbrev main_v18 : Ref sig .tc := ⟨.hbm, 70, rfl⟩
abbrev main_cst_6 : Ref sig .tc := ⟨.hbm, 71, rfl⟩
abbrev main_v19 : Ref sig .tc := ⟨.hbm, 72, rfl⟩
abbrev main_cst_7 : Ref sig .tc := ⟨.hbm, 73, rfl⟩
abbrev main_v20 : Ref sig .tc := ⟨.hbm, 74, rfl⟩

abbrev nD : Nat := 1
abbrev τ : Topo := Topo.v7x

variable {F : FTy → Type} [FloatOps F]

class Facts₀ : Prop where
  bcast_S_S2x2048x50257 : S_.BroadcastsInDim S2x2048x50257 (![] : Fin 0 → Fin S2x2048x50257.rank)
  reducesTo_S2x2048x50257_S2x2048_d2 : S2x2048x50257.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x50257_0_1_2 : S2x2048x1.BroadcastsInDim S2x2048x50257 (![0, 1, 2] : Fin 3 → Fin S2x2048x50257.rank)
  bcast_S_S2x2048x8 : S_.BroadcastsInDim S2x2048x8 (![] : Fin 0 → Fin S2x2048x8.rank)
  shapeCasts_S2x2048x8_S2x2048x8x1 : S2x2048x8.ShapeCasts S2x2048x8x1
  bcast_S_S2x2048x8x1 : S_.BroadcastsInDim S2x2048x8x1 (![] : Fin 0 → Fin S2x2048x8x1.rank)
  bcast_S1_S1x1x1x1_3 : S1.BroadcastsInDim S1x1x1x1 (![3] : Fin 1 → Fin S1x1x1x1.rank)
  bcast_S1x1x1x1_S2x2048x8x1_0_1_2_3 : S1x1x1x1.BroadcastsInDim S2x2048x8x1 (![0, 1, 2, 3] : Fin 4 → Fin S2x2048x8x1.rank)
  reducesTo_S2x2048x8x1_S2x2048x8_d3 : S2x2048x8x1.ReducesTo [3] S2x2048x8
  reducesTo_S2x2048x8_S2x2048_d2 : S2x2048x8.ReducesTo [2] S2x2048
  bcast_S_S2x2048x1 : S_.BroadcastsInDim S2x2048x1 (![] : Fin 0 → Fin S2x2048x1.rank)
  bcast_S2x2048x1_S2x2048x8_0_1_2 : S2x2048x1.BroadcastsInDim S2x2048x8 (![0, 1, 2] : Fin 3 → Fin S2x2048x8.rank)
  reducesTo_S2x2048_S2_d1 : S2x2048.ReducesTo [1] S2
  bcast_S_S2 : S_.BroadcastsInDim S2 (![] : Fin 0 → Fin S2.rank)
  reducesTo_S2_S_d0 : S2.ReducesTo [0] S_
  gather_S2x2048x50257_S2x2048x8x1_S2x2048x8_n_2_01_01_2_3_111_wf : GatherDims.WF S2x2048x50257 S2x2048x8x1 S2x2048x8 [] [2] [0, 1] [2] [0, 1] 3 ![1, 1, 1]

variable [Facts₀]

def gather_S2x2048x50257_S2x2048x8x1_S2x2048x8_n_2_01_01_2_3_111 : GatherDims S2x2048x50257 S2x2048x8x1 S2x2048x8 where
  offsetDims := []
  collapsedSliceDims := [2]
  operandBatchingDims := [0, 1]
  startIndicesBatchingDims := [0, 1]
  startIndexMap := [2]
  indexVectorDim := 3
  sliceSizes := ![1, 1, 1]
  wf := gather_S2x2048x50257_S2x2048x8x1_S2x2048x8_n_2_01_01_2_3_111_wf

class Facts : Prop extends Facts₀ where

variable [Facts]
-- ==== Proof.LibTRefPlain.lean ====
/-
  Typed-reference operations as plain operations.

  A module-local function's operations are built over typed references: each reads its operands and writes its
  result through a transport along the buffer's type equation.  When a typed reference is a literal buffer taken at
  its own type, the transport is the identity, and the operation IS the plain operation on the same buffers with the
  same function.  The lemmas state this for an ARBITRARY function: with the function abstract the two sides differ
  only by transports of variables, so each is a reflexivity; an instance at a concrete function (a reduction, a
  gather) is then obtained by instantiation, with nothing to unfold.
-/
import Idealize.ShloMosaic.Lib.StableHlo

noncomputable section

namespace Idealize.ShloMosaic.StableHlo.TRefPlain

open Idealize.ShloMosaic Idealize.ShloMosaic.StableHlo

variable {τ : Topo} {sig : RefSig} {Val : EltTy → Type}

theorem nullary_of (y : Ref sig .tc) (hy1 : y.space ≠ .host) (hy2 : y.isScoped = false) (v : y.ty.Contents Val) :
    TRef.nullary (τ := τ) (TRef.of (T := y.ty) y rfl hy1 hy2) v
      = StableHlo.nullary y v (TRef.of (T := y.ty) y rfl hy1 hy2).dev := rfl

theorem unary_of (x y : Ref sig .tc) (hx1 : x.space ≠ .host) (hx2 : x.isScoped = false) (hy1 : y.space ≠ .host)
    (hy2 : y.isScoped = false) (g : x.ty.Contents Val → y.ty.Contents Val) :
    TRef.unary (τ := τ) (TRef.of (T := x.ty) x rfl hx1 hx2) (TRef.of (T := y.ty) y rfl hy1 hy2) g
      = StableHlo.unary x y g (TRef.of (T := x.ty) x rfl hx1 hx2).dev (TRef.of (T := y.ty) y rfl hy1 hy2).dev := rfl

theorem binary_of (a b y : Ref sig .tc) (ha1 : a.space ≠ .host) (ha2 : a.isScoped = false) (hb1 : b.space ≠ .host)
    (hb2 : b.isScoped = false) (hy1 : y.space ≠ .host) (hy2 : y.isScoped = false)
    (g : a.ty.Contents Val → b.ty.Contents Val → y.ty.Contents Val) :
    TRef.binary (τ := τ) (TRef.of (T := a.ty) a rfl ha1 ha2) (TRef.of (T := b.ty) b rfl hb1 hb2)
        (TRef.of (T := y.ty) y rfl hy1 hy2) g
      = StableHlo.binary a b y g (TRef.of (T := a.ty) a rfl ha1 ha2).dev (TRef.of (T := b.ty) b rfl hb1 hb2).dev
          (TRef.of (T := y.ty) y rfl hy1 hy2).dev := rfl

theorem ternary_of (c a b y : Ref sig .tc) (hc1 : c.space ≠ .host) (hc2 : c.isScoped = false) (ha1 : a.space ≠ .host)
    (ha2 : a.isScoped = false) (hb1 : b.space ≠ .host) (hb2 : b.isScoped = false) (hy1 : y.space ≠ .host)
    (hy2 : y.isScoped = false) (g : c.ty.Contents Val → a.ty.Contents Val → b.ty.Contents Val → y.ty.Contents Val) :
    TRef.ternary (τ := τ) (TRef.of (T := c.ty) c rfl hc1 hc2) (TRef.of (T := a.ty) a rfl ha1 ha2)
        (TRef.of (T := b.ty) b rfl hb1 hb2) (TRef.of (T := y.ty) y rfl hy1 hy2) g
      = StableHlo.ternary c a b y g (TRef.of (T := c.ty) c rfl hc1 hc2).dev (TRef.of (T := a.ty) a rfl ha1 ha2).dev
          (TRef.of (T := b.ty) b rfl hb1 hb2).dev (TRef.of (T := y.ty) y rfl hy1 hy2).dev := rfl

end Idealize.ShloMosaic.StableHlo.TRefPlain

end
-- ==== Proof.RefStages.lean ====
/-
  The reference's run, read stretch by stretch.

  The reference is a straight line of 69 host operations.  Its result is read in three stretches: the first 18
  operations leave the log-softmax of the logits in one buffer; the next 22 gather, per token id, an entry of it (the
  id wrapped if negative, NaN-filled if out of range); the last 29 compute the masked mean of the KL terms from
  those entries, the teacher's log-probabilities and the mask.  Each stretch is stated for an ARBITRARY valuation of
  the buffers it starts from — what it writes as a function of what it reads, and that it leaves the other buffers
  alone — so the three compose by `after_append` without any stretch's term being unfolded inside another's.
-/
import proofs.«429530_j76828374991742_1_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-- The gathered entries as a function of the log-softmax array `lp` and the ids: where the (wrapped) id is in range the
    entry of `lp` at it, else the fill value. -/
def takeStage (lp : (⟨S2x2048x50257, .f32⟩ : BufTy).Contents (Elt F)) (x2 : (⟨S2x2048x8, .i32⟩ : BufTy).Contents (Elt F)) :
    (⟨S2x2048x8, .f32⟩ : BufTy).Contents (Elt F) :=
  select (val_main_call1_v12 (F := F) x2)
    (Host.gather gather_S2x2048x50257_S2x2048x8x1_S2x2048x8_n_2_01_01_2_3_111 lp (val_main_call1_v5 (F := F) x2))
    (val_main_call1_v14 (F := F))

/-- The result as a function of the student's log-probabilities `st`, the teacher's log-probabilities `x3` and the mask
    `x4`: the mean over the batch of the masked, mask-normalized sums of the KL terms. -/
def tailStage (st x3 : (⟨S2x2048x8, .f32⟩ : BufTy).Contents (Elt F)) (x4 : (⟨S2x2048, .f32⟩ : BufTy).Contents (Elt F)) :
    (⟨S_, .f32⟩ : BufTy).Contents (Elt F) :=
  Host.divf
    (Host.reduceAdd
      (Host.divf
        (Host.reduceAdd
          (mulf (Host.reduceAdd (mulf (val_main_v9 (F := F) x3) (subf (val_main_v10 (F := F) x3) st)) (val_main_cst_2 (F := F))
            reducesTo_S2x2048x8_S2x2048_d2 h_S_) x4)
          (val_main_cst_3 (F := F)) reducesTo_S2x2048_S2_d1 h_S_)
        (val_main_v17 (F := F) x4))
      (val_main_cst_6 (F := F)) reducesTo_S2_S_d0 h_S_)
    (val_main_cst_7 (F := F))

theorem val_main_v3_eq (x0 : (⟨S2x2048x50257, .f32⟩ : BufTy).Contents (Elt F)) (x2 : (⟨S2x2048x8, .i32⟩ : BufTy).Contents (Elt F)) :
    val_main_v3 (F := F) x0 x2 = takeStage (val_main_v2 (F := F) x0) x2 := rfl

theorem val_main_v20_eq (x0 : (⟨S2x2048x50257, .f32⟩ : BufTy).Contents (Elt F)) (x2 : (⟨S2x2048x8, .i32⟩ : BufTy).Contents (Elt F))
    (x3 : (⟨S2x2048x8, .f32⟩ : BufTy).Contents (Elt F)) (x4 : (⟨S2x2048, .f32⟩ : BufTy).Contents (Elt F)) :
    val_main_v20 (F := F) x0 x2 x3 x4 = tailStage (val_main_v3 (F := F) x0 x2) x3 x4 := rfl

/-! ## The first stretch: the log-softmax -/

/-- (Read over the stretch's plain form: with the typed references' transports gone the two sides are one term.) -/
theorem afterA_v2 (W : Valuation τ sig (Elt F)) :
    after opsA W (Proc.devRef .tc main_v2) = val_main_v2 (F := F) (W (Proc.devRef .tc main_arg0)) := by
  rw [opsA_eq]
  after_results_simp
  rfl
theorem afterA_arg2 (W : Valuation τ sig (Elt F)) : after opsA W (Proc.devRef .tc main_arg2) = W (Proc.devRef .tc main_arg2) := by
  after_results_simp
theorem afterA_arg3 (W : Valuation τ sig (Elt F)) : after opsA W (Proc.devRef .tc main_arg3) = W (Proc.devRef .tc main_arg3) := by
  after_results_simp
theorem afterA_arg4 (W : Valuation τ sig (Elt F)) : after opsA W (Proc.devRef .tc main_arg4) = W (Proc.devRef .tc main_arg4) := by
  after_results_simp

/-! ## The second stretch: the gather -/

theorem afterB_v3 (W : Valuation τ sig (Elt F)) :
    after opsB W (Proc.devRef .tc main_v3) = takeStage (W (Proc.devRef .tc main_v2)) (W (Proc.devRef .tc main_arg2)) := by
  rw [opsB_eq]
  after_results_simp
  rfl
theorem afterB_arg3 (W : Valuation τ sig (Elt F)) : after opsB W (Proc.devRef .tc main_arg3) = W (Proc.devRef .tc main_arg3) := by
  after_results_simp
theorem afterB_arg4 (W : Valuation τ sig (Elt F)) : after opsB W (Proc.devRef .tc main_arg4) = W (Proc.devRef .tc main_arg4) := by
  after_results_simp

/-! ## The third stretch: the KL terms and their masked mean -/

theorem afterC_v20 (W : Valuation τ sig (Elt F)) :
    after opsC W (Proc.devRef .tc main_v20)
      = tailStage (W (Proc.devRef .tc main_v3)) (W (Proc.devRef .tc main_arg3)) (W (Proc.devRef .tc main_arg4)) := by
  after_results_simp <;> rfl

/-! ## The whole line -/

/-- The result buffer after all 69 operations, from any valuation: the three stretches composed. -/
theorem after_ops_v20 (W : Valuation τ sig (Elt F)) :
    after ops W (Proc.devRef .tc main_v20)
      = val_main_v20 (F := F) (W (Proc.devRef .tc main_arg0)) (W (Proc.devRef .tc main_arg2)) (W (Proc.devRef .tc main_arg3))
          (W (Proc.devRef .tc main_arg4)) := by
  rw [ops_split, after_append, after_append, afterC_v20, afterB_v3, afterB_arg3, afterB_arg4, afterA_v2, afterA_arg2, afterA_arg3,
    afterA_arg4, val_main_v20_eq, val_main_v3_eq]

set_option maxRecDepth 8192 in
set_option maxHeartbeats 4000000 in
/-- On every device, from any memory with zero counters: every weakly fair execution of @main terminates with the
    result at its staged function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = val_main_v20 (F := F) (m ((c.tc : Thread nD τ).loc main_arg0)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (after_ops_v20 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.PreDecode.lean ====
/-
  The precondition, read back.

  The printed precondition is the conjunction of four `jnp.all`s: the absolute value of every logit, of every teacher
  log-probability and of every mask entry is below +∞, and every teacher token id lies in [0, 50257).  Of these the
  proof uses two: every logit is a real number (an extended real whose absolute value is below +∞ is neither
  infinity), and every id, read signed, is at least 0 and below 50257.
-/
import proofs.«429530_j76828374991742_1_alg».proof.Pre_finite_inputs
import proofs.«429530_j76828374991742_1_alg».proof.Proof.LibRealClosure
import Idealize.ShloMosaic.Lib.ReduceAll
import Idealize.ShloMosaic.Lib.ValueIdx
import Idealize.ShloMosaic.Lib.Pipeline.Value
import Idealize.ShloMosaic.Lib.StableHlo.Predicate
import Idealize.ShloMosaic.PureOps.Ideal

noncomputable section

namespace Cert.Pre_finite_inputs.Decode

open Idealize.ShloMosaic Idealize.ShloMosaic.ValueIdx RealClosure Cert.Pre_finite_inputs
open Cert.Pre_finite_inputs.Facts

variable [Cert.Pre_finite_inputs.Facts]

/-- The ordered "less than" of the ideal values, read back. -/
theorem lt_of_cmp_olt {a b : EReal} (h : Ideal.cmp .olt a b = 1#1) : a < b := by
  by_contra hn
  have : Ideal.cmp .olt a b = 0#1 := by
    unfold Ideal.cmp
    simp [hn]
  rw [this] at h
  exact absurd h (by decide)

/-- An extended real whose absolute value is below +∞ is a real number. -/
theorem isReal_of_abs_lt_top {x : EReal} (h : max x (-x) < ⊤) : IsReal x := by
  refine isReal_of_ne ?_ ?_
  · rintro rfl
    simp at h
  · rintro rfl
    simp at h

theorem decode (a0 : FVec Ideal S2x2048x50257 .f32) (a1 : IVec S2x2048 32) (a2 : IVec S2x2048x8 32)
    (a3 : FVec Ideal S2x2048x8 .f32) (a4 : FVec Ideal S2x2048 .f32) (a5 : IVec S2 32)
    (h : fn (F := Ideal) a0 a1 a2 a3 a4 a5 = fun _ => 1#1) :
    (∀ i, IsReal (a0 i)) ∧ ∀ i, 0 ≤ (a2 i).toInt ∧ (a2 i).toInt < 50257 := by
  have h0 := congrFun h ix0
  unfold fn fn_part1 at h0
  dsimp only at h0
  obtain ⟨h13, h19⟩ := IntOp.andi_eq_one.1 h0
  obtain ⟨h8, -⟩ := IntOp.andi_eq_one.1 h13
  obtain ⟨h3, -⟩ := IntOp.andi_eq_one.1 h8
  haveI : Subsingleton S_.Idx := ⟨fun a b => funext fun d => d.elim0⟩
  refine ⟨fun i => ?_, fun i => ?_⟩
  · have e := Host.reduce_andi_all _ _ _ _ _ h3 i
    have hb : broadcastInDim S2x2048x50257 ![] bcast_S_S2x2048x50257 (constant (F := Ideal) S_ .f32 0x7F800000#32) i
        = Ideal.ofBits .f32 0x7F800000#32 :=
      broadcastInDim_apply _ bcast_S_S2x2048x50257 _ i ix0 (fun a => a.elim0)
    have e' : Ideal.cmp .olt (max (a0 i) (-(a0 i)))
        (broadcastInDim S2x2048x50257 ![] bcast_S_S2x2048x50257 (constant (F := Ideal) S_ .f32 0x7F800000#32) i) = 1#1 := e
    rw [hb, ofBits_pos_inf_f32] at e'
    exact isReal_of_abs_lt_top (lt_of_cmp_olt e')
  · have e := Host.reduce_andi_all _ _ _ _ _ h19 i
    obtain ⟨e1, e2⟩ := IntOp.andi_eq_one.1 e
    have hz : broadcastInDim S2x2048x8 ![] bcast_S_S2x2048x8 (constantI S_ 32 0#32) i = 0#32 :=
      broadcastInDim_apply _ bcast_S_S2x2048x8 _ i ix0 (fun a => a.elim0)
    have hv : broadcastInDim S2x2048x8 ![] bcast_S_S2x2048x8 (constantI S_ 32 50257#32) i = 50257#32 :=
      broadcastInDim_apply _ bcast_S_S2x2048x8 _ i ix0 (fun a => a.elim0)
    have g1 := IntOp.cmpi_sge.1 e1
    have g2 := IntOp.cmpi_slt.1 e2
    rw [hz] at g1
    rw [hv, StableHlo.Predicate.toInt_ofNat_small 50257 (by norm_num)] at g2
    have z : (0#32 : BitVec 32).toInt = 0 := by decide
    rw [z] at g1
    exact ⟨g1, g2⟩

end Cert.Pre_finite_inputs.Decode

end
-- ==== Proof.Spec.lean ====
/-
  The specification both programs are proved against, and the mathematics that joins them.

  For one row `x : Fin 50257 → EReal` of logits and one 32-bit token id `w` the student's
  log-probability is
      logprob x w = pick x w − (rowMax x + log (Σ_v exp (x v − rowMax x))),
  where `rowMax x` is the maximum of the row taken from −∞ and `pick x w` is the one-hot sum
  `Σ_v (if v = w then x v else 0)`.  The kernel computes exactly this term.  The reference computes
      (x w' − M) − log (Σ_v exp (x v − M)),   M = max (−∞) (rowMax x),
  at the clamped position `w'` of the id.  For a row of real numbers and an id inside the vocabulary
  the two are one number: the one-hot sum has exactly one non-zero term, `M` is the row maximum, the
  shifted sum of exponentials is a positive real, so its logarithm is real, and on real numbers
  `a − (m + l) = (a − m) − l`.  (On the extended reals the last law fails at infinities, which is why
  the rows are first shown real.)
-/
import Idealize.ShloMosaic.PureOps.Ideal
import Idealize.ShloMosaic.PureOps.Ideal.Laws
import Idealize.ShloMosaic.Lib.ValueIdx
import Mathlib.Data.Finset.Lattice.Fold
import proofs.«429530_j76828374991742_1_alg».proof.Proof.LibRealClosure

noncomputable section

namespace Cert.StudentLogprob

open Idealize.ShloMosaic RealClosure
open scoped BigOperators

/-- The maximum of a row, taken from −∞. -/
def rowMax (x : Fin 50257 → EReal) : EReal := (Finset.univ : Finset (Fin 50257)).fold max ⊥ x

/-- The sum of the exponentials of a row shifted by `s`. -/
def shiftSum (x : Fin 50257 → EReal) (s : EReal) : EReal := ∑ v : Fin 50257, Ideal.exp (x v - s)

/-- The one-hot sum: the row's entry at the position whose 32-bit word is `w`, zero elsewhere. -/
def pick (x : Fin 50257 → EReal) (w : BitVec 32) : EReal :=
  ∑ v : Fin 50257, if BitVec.ofNat 32 v.val = w then x v else 0

/-- The student's log-probability of token `w` under the row of logits `x`. -/
def logprob (x : Fin 50257 → EReal) (w : BitVec 32) : EReal :=
  pick x w - (rowMax x + Ideal.log (shiftSum x (rowMax x)))

/-- The maximum of a row of real numbers is one of its entries, so a real number. -/
theorem rowMax_isReal {x : Fin 50257 → EReal} (hx : ∀ v, IsReal (x v)) : IsReal (rowMax x) := by
  have e : rowMax x = (Finset.univ : Finset (Fin 50257)).sup x := rfl
  obtain ⟨i, -, hi⟩ := Finset.exists_mem_eq_sup (Finset.univ : Finset (Fin 50257)) ⟨⟨0, by norm_num⟩, Finset.mem_univ _⟩ x
  rw [e, hi]; exact hx i

/-- The shifted sum of exponentials of a real row by a real shift is a positive real. -/
theorem shiftSum_pos {x : Fin 50257 → EReal} (hx : ∀ v, IsReal (x v)) {s : EReal} (hs : IsReal s) :
    ∃ r : ℝ, 0 < r ∧ shiftSum x s = (r : EReal) := by
  have hr : IsReal (shiftSum x s) := isReal_sum_univ _ fun v => isReal_exp ((hx v).sub hs)
  have hp : 0 < shiftSum x s :=
    sum_pos_of_isReal Finset.univ _ (fun v _ => isReal_exp ((hx v).sub hs)) (fun v _ => exp_pos ((hx v).sub hs))
      ⟨⟨0, by norm_num⟩, Finset.mem_univ _⟩
  obtain ⟨r, hr⟩ := hr
  exact ⟨r, by rw [hr] at hp; exact EReal.coe_pos.1 hp, hr⟩

/-- So its logarithm is a real number. -/
theorem log_shiftSum_isReal {x : Fin 50257 → EReal} (hx : ∀ v, IsReal (x v)) {s : EReal} (hs : IsReal s) :
    IsReal (Ideal.log (shiftSum x s)) := by
  obtain ⟨r, hr, e⟩ := shiftSum_pos hx hs
  rw [e, Ideal.log_coe, if_neg (not_le.2 hr)]
  exact ⟨_, rfl⟩

/-- A one-hot sum whose hot position lies inside the row is the row's entry there. -/
theorem pick_eq (x : Fin 50257 → EReal) (w : BitVec 32) (hw : w.toNat < 50257) : pick x w = x ⟨w.toNat, hw⟩ := by
  unfold pick
  rw [Finset.sum_eq_single (⟨w.toNat, hw⟩ : Fin 50257)]
  · rw [if_pos]
    exact BitVec.eq_of_toNat_eq (by simp)
  · intro v _ hv
    rw [if_neg]
    intro h
    apply hv
    apply Fin.ext
    have := congrArg BitVec.toNat h
    rw [BitVec.toNat_ofNat, Nat.mod_eq_of_lt (by have := v.isLt; omega)] at this
    exact this
  · intro h; exact absurd (Finset.mem_univ _) h

/-- On real numbers, subtracting a sum is subtracting its terms one after the other. -/
theorem sub_add_eq_sub_sub_of_isReal {a m l : EReal} (ha : IsReal a) (hm : IsReal m) (hl : IsReal l) :
    a - (m + l) = (a - m) - l := by
  obtain ⟨a, rfl⟩ := ha; obtain ⟨m, rfl⟩ := hm; obtain ⟨l, rfl⟩ := hl
  rw [← EReal.coe_add, ← EReal.coe_sub, ← EReal.coe_sub, ← EReal.coe_sub]
  congr 1; ring

/-- THE LAW that joins the two programs: for a row of real numbers and a token id inside the vocabulary, the
    log-softmax entry taken at the id — the row shifted by its maximum (joined with −∞), minus the logarithm of the
    shifted exponentials' sum — is the student's log-probability. -/
theorem shifted_eq_logprob {x : Fin 50257 → EReal} (hx : ∀ v, IsReal (x v)) (w : BitVec 32) (hw : w.toNat < 50257) :
    (x ⟨w.toNat, hw⟩ - max ⊥ (rowMax x)) - Ideal.log (shiftSum x (max ⊥ (rowMax x))) = logprob x w := by
  have hM := rowMax_isReal hx
  rw [max_eq_right bot_le]
  unfold logprob
  rw [pick_eq x w hw]
  exact (sub_add_eq_sub_sub_of_isReal (hx _) hM (log_shiftSum_isReal hx hM)).symm

/-- Dividing by the number one changes nothing. -/
theorem div_one_f32 (x : EReal) : Ideal.div x (Ideal.ofBits .f32 0x3F800000#32) = x := by
  rw [ofBits_one_f32, Ideal.div_coe one_ne_zero]
  simp

end Cert.StudentLogprob

end
-- ==== Proof.KernelBlock.lean ====
/-
  What the kernel's body leaves in its output block, entry by entry.

  A block holds 32 rows of logits `x0 : [32, 50257]` and 32 rows of eight token ids `x1 : [32, 8]`.  For each
  of the eight columns the body selects, along a row, the logit whose position equals the id (a one-hot mask
  against the lane iota), sums the row, and subtracts the row's normalizer `max + log Σ exp (x − max)`; the eight
  columns are concatenated.  So entry (p, q) of the result is `logprob (row p of x0) (x1 p q)` of the
  specification.  No hypothesis on the values is needed for this reading.
-/
import proofs.«429530_j76828374991742_1_alg».proof.Proof.Gen.KernelIdeal.Frame
import proofs.«429530_j76828374991742_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.KernelIdeal.BlockValue

open Idealize.ShloMosaic Idealize.ShloMosaic.ValueIdx Cert.KernelIdeal Cert.KernelIdeal.Gen Cert.StudentLogprob RealClosure
open scoped BigOperators

theorem hz : (![0, 0] : Fin 2 → Nat) = fun _ => 0 := funext fun a => by fin_cases a <;> rfl

/-- Row `p` of a block of logits. -/
abbrev rowOf (v1 : FVec Ideal S32x50257 .f32) (p : Fin 32) : Fin 50257 → EReal := fun v => v1 (ix2 p v)

/-- The lane reduction's inserted index: row `p`, lane `v`. -/
theorem lift_eq (p : Fin 32) (v : Fin 50257) : reduces_S32x50257_S32.lift (ix1 p) v = ix2 p v :=
  Shape.idx_ext₂ rfl rfl

/-- A sum over the lanes of row `p`, written over the literal lane type. -/
theorem sum_lift (f : S32x50257.Idx → EReal) (p : Fin 32) :
    (∑ k : Fin (S32x50257.size 1), f (reduces_S32x50257_S32.lift (ix1 p) k)) = ∑ v : Fin 50257, f (ix2 p v) := by
  show (∑ k : Fin 50257, f (reduces_S32x50257_S32.lift (ix1 p) k)) = _
  exact Finset.sum_congr rfl fun v _ => by rw [lift_eq]

/-- A keepdims cast [32] → [32, 1] read at (p, 0) is the vector at p. -/
theorem keepdims_apply {α : Type} (x : S32.Idx → α) (p : Fin 32) :
    shapeCast S32x1 x shapeCasts_S32_S32x1 (ix2 p (0 : Fin 1)) = x (ix1 p) := by
  refine shapeCast_apply x shapeCasts_S32_S32x1 (ix2 p (0 : Fin 1)) (ix1 p) ?_
  rw [Shape.rowMajor_val_one, Shape.rowMajor_val_two]
  show p.val = p.val * 1 + 0
  omega

/-- A [32, 1] column broadcast along the lanes, read at (p, v), is the column at (p, 0). -/
theorem lanes_apply {α : Type} (x : S32x1.Idx → α) (p : Fin 32) (v : Fin 50257) :
    broadcastTo S32x50257 x broadcasts_S32x1_S32x50257 (ix2 p v) = x (ix2 p (0 : Fin 1)) :=
  broadcastTo_apply x broadcasts_S32x1_S32x50257 (ix2 p v) (ix2 p (0 : Fin 1))
    (fun a => by match a with | ⟨0, _⟩ => rfl | ⟨1, _⟩ => rfl)

/-- ONE COLUMN's one-hot sum: the ids' column `q` (a unit-stride slice at offset (0, q)) broadcast along the lanes,
    compared with the lane iota, selects the logit at the id's position; the lane sum of the selection, kept as a
    [32, 1] column, is at row `p` the one-hot sum `pick` of the row at the id. -/
theorem onehot_apply (off : Fin 2 → Nat) (hs : S32x8.Slices off S32x1) (q : Fin 8) (h0 : off 0 = 0) (h1 : off 1 = q.val)
    (v1 : FVec Ideal S32x50257 .f32) (v12 : IVec S32x8 32) (hφ : FKind.Formats .f32)
    (hacc : (0#32 : BitVec 32) = FKind.add.neutral .f32 hφ) (p : Fin 32) :
    shapeCast S32x1
        (multiReduction .add [1] S32
          (select
            (cmpi .eq (iota .tc S32x50257 32 [1] iota_S32x50257_d1_w32)
              (broadcastTo S32x50257 (extractStridedSlice S32x1 off v12 hs) broadcasts_S32x1_S32x50257))
            v1 (broadcast S32x50257 (FloatOps.ofBits .f32 0#32)))
          0#32 reduces_S32x50257_S32 hφ hacc)
        shapeCasts_S32_S32x1 (ix2 p (0 : Fin 1))
      = pick (rowOf v1 p) (v12 (ix2 p q)) := by
  refine (keepdims_apply _ p).trans ?_
  refine (Ideal.multiReduction_add_single _ 0#32 reduces_S32x50257_S32 hφ hacc (ix1 p)).trans ?_
  refine (sum_lift _ p).trans ?_
  unfold pick
  refine Finset.sum_congr rfl fun v _ => ?_
  have hid : broadcastTo S32x50257 (extractStridedSlice S32x1 off v12 hs) broadcasts_S32x1_S32x50257 (ix2 p v)
      = v12 (ix2 p q) :=
    (lanes_apply _ p v).trans (extractStridedSlice_apply off v12 hs (ix2 p (0 : Fin 1)) (ix2 p q)
      (fun a => by
        match a with
        | ⟨0, _⟩ => show p.val = off 0 + p.val; omega
        | ⟨1, _⟩ => show q.val = off 1 + 0; omega))
  have hio : iota .tc S32x50257 32 [1] iota_S32x50257_d1_w32 (ix2 p v) = BitVec.ofNat 32 v.val :=
    iota_single_apply .tc S32x50257 32 1 iota_S32x50257_d1_w32 (ix2 p v)
  show Scalar.select (IntOp.cmpi .eq (iota .tc S32x50257 32 [1] iota_S32x50257_d1_w32 (ix2 p v))
      (broadcastTo S32x50257 (extractStridedSlice S32x1 off v12 hs) broadcasts_S32x1_S32x50257 (ix2 p v)))
      (v1 (ix2 p v)) (Ideal.ofBits .f32 0#32) = _
  rw [hid, hio, Ideal.ofBits_zero_f32]
  unfold Scalar.select
  by_cases h : BitVec.ofNat 32 v.val = v12 (ix2 p q)
  · have hc : IntOp.cmpi .eq (BitVec.ofNat 32 v.val) (v12 (ix2 p q)) = 1 := StableHlo.Predicate.cmpi_eq_iff.2 h
    rw [if_pos hc, if_pos h]
  · have hc : ¬ IntOp.cmpi .eq (BitVec.ofNat 32 v.val) (v12 (ix2 p q)) = 1 :=
      fun hc => h (StableHlo.Predicate.cmpi_eq_iff.1 hc)
    rw [if_neg hc, if_neg h]

/-- The elementwise logarithm and exponential read at an index. -/
theorem log_apply {s : Shape} (a : FVec Ideal s .f32) (i : s.Idx) : log a i = Ideal.log (a i) := rfl
theorem exp_apply {s : Shape} (a : FVec Ideal s .f32) (i : s.Idx) : exp a i = Ideal.exp (a i) := rfl

/-- The lane maximum from −∞, at row `p`, is the row's maximum. -/
theorem maxRow_apply (v1 : FVec Ideal S32x50257 .f32) (hφ : FKind.Formats .f32)
    (hacc : (0xFF800000#32 : BitVec 32) = FKind.maximumf.neutral .f32 hφ) (p : Fin 32) :
    multiReduction .maximumf [1] S32 v1 0xFF800000#32 reduces_S32x50257_S32 hφ hacc (ix1 p) = rowMax (rowOf v1 p) := by
  refine (Ideal.multiReduction_maximumf_single v1 _ reduces_S32x50257_S32 hφ hacc (ix1 p)).trans ?_
  show (Finset.univ : Finset (Fin 50257)).fold max (Ideal.ofBits .f32 0xFF800000#32)
      (fun k : Fin 50257 => v1 (reduces_S32x50257_S32.lift (ix1 p) k)) = _
  rw [ofBits_neg_inf_f32]
  unfold rowMax
  congr 1
  funext k
  exact congrArg v1 (lift_eq p k)

/-- THE NORMALIZER of row `p`: the row's maximum plus the logarithm of the sum of the row's exponentials shifted by
    that maximum. -/
theorem normalizer_of (v1 : FVec Ideal S32x50257 .f32) (hφ1 : FKind.Formats .f32)
    (hacc1 : (0xFF800000#32 : BitVec 32) = FKind.maximumf.neutral .f32 hφ1) (hφ2 : FKind.Formats .f32)
    (hacc2 : (0#32 : BitVec 32) = FKind.add.neutral .f32 hφ2) (p : Fin 32) :
    addf (shapeCast S32x1 (multiReduction .maximumf [1] S32 v1 0xFF800000#32 reduces_S32x50257_S32 hφ1 hacc1) shapeCasts_S32_S32x1)
        (log (shapeCast S32x1
          (multiReduction .add [1] S32
            (exp (subf v1 (broadcastTo S32x50257
              (shapeCast S32x1 (multiReduction .maximumf [1] S32 v1 0xFF800000#32 reduces_S32x50257_S32 hφ1 hacc1) shapeCasts_S32_S32x1)
              broadcasts_S32x1_S32x50257)))
            0#32 reduces_S32x50257_S32 hφ2 hacc2)
          shapeCasts_S32_S32x1)) (ix2 p (0 : Fin 1))
      = rowMax (rowOf v1 p) + Ideal.log (shiftSum (rowOf v1 p) (rowMax (rowOf v1 p))) := by
  have hM : shapeCast S32x1 (multiReduction .maximumf [1] S32 v1 0xFF800000#32 reduces_S32x50257_S32 hφ1 hacc1)
      shapeCasts_S32_S32x1 (ix2 p (0 : Fin 1)) = rowMax (rowOf v1 p) :=
    (keepdims_apply _ p).trans (maxRow_apply v1 hφ1 hacc1 p)
  refine (addf_apply _ _ _).trans ?_
  refine congrArg₂ (fun a b : EReal => a + b) hM ?_
  refine (log_apply _ _).trans (congrArg Ideal.log ?_)
  refine (keepdims_apply _ p).trans ?_
  refine (Ideal.multiReduction_add_single _ 0#32 reduces_S32x50257_S32 hφ2 hacc2 (ix1 p)).trans ?_
  refine (sum_lift _ p).trans ?_
  unfold shiftSum
  refine Finset.sum_congr rfl fun v _ => ?_
  refine (exp_apply _ _).trans (congrArg Ideal.exp ?_)
  refine (subf_apply _ _ _).trans ?_
  refine congrArg₂ (fun a b : EReal => a - b) rfl ?_
  exact (lanes_apply _ p v).trans hM

theorem pay2_eq (v0 : Vec Ideal S32x50257 .f32) : k0_pay2 v0 = v0 := shapeCast_self v0 _
theorem pay4_eq (v11 : Vec Ideal S32x8 .i32) : k0_pay4 (F := Ideal) v11 = v11 := shapeCast_self v11 _

/-- The body's normalizer payload at row `p`. -/
theorem normalizer_apply (v0 : Vec Ideal S32x50257 .f32) (p : Fin 32) :
    k0_pay3 v0 (ix2 p (0 : Fin 1)) = rowMax (rowOf v0 p) + Ideal.log (shiftSum (rowOf v0 p) (rowMax (rowOf v0 p))) := by
  unfold k0_pay3
  dsimp only
  rw [pay2_eq]
  exact normalizer_of v0 _ _ _ _ p

/-- ONE COLUMN of the result: the one-hot sum minus the normalizer is the specification's log-probability. -/
theorem column_apply (off : Fin 2 → Nat) (hs : S32x8.Slices off S32x1) (q : Fin 8) (h0 : off 0 = 0) (h1 : off 1 = q.val)
    (v0 : Vec Ideal S32x50257 .f32) (v12 : IVec S32x8 32) (hφ : FKind.Formats .f32)
    (hacc : (0#32 : BitVec 32) = FKind.add.neutral .f32 hφ) (p : Fin 32) :
    subf (shapeCast S32x1
        (multiReduction .add [1] S32
          (select
            (cmpi .eq (iota .tc S32x50257 32 [1] iota_S32x50257_d1_w32)
              (broadcastTo S32x50257 (extractStridedSlice S32x1 off v12 hs) broadcasts_S32x1_S32x50257))
            v0 (broadcast S32x50257 (FloatOps.ofBits .f32 0#32)))
          0#32 reduces_S32x50257_S32 hφ hacc)
        shapeCasts_S32_S32x1) (k0_pay3 v0) (ix2 p (0 : Fin 1))
      = logprob (rowOf v0 p) (v12 (ix2 p q)) :=
  (subf_apply _ _ _).trans
    (congrArg₂ (fun a b : EReal => a - b) (onehot_apply off hs q h0 h1 v0 v12 hφ hacc p) (normalizer_apply v0 p))

/-- Eight [32, 1] columns concatenated along the second axis, read at (p, n): column `n` at (p, 0). -/
theorem concat8_apply {α : Type} (f0 f1 f2 f3 f4 f5 f6 f7 : S32x1.Idx → α) (p : Fin 32) (n : Fin 8) :
    concatenate S32x8 1 [⟨S32x1, f0⟩, ⟨S32x1, f1⟩, ⟨S32x1, f2⟩, ⟨S32x1, f3⟩, ⟨S32x1, f4⟩, ⟨S32x1, f5⟩, ⟨S32x1, f6⟩, ⟨S32x1, f7⟩]
        concatenates_S32x1_S32x1_S32x1_S32x1_S32x1_S32x1_S32x1_S32x1_S32x8_d1 (ix2 p n)
      = (![f0, f1, f2, f3, f4, f5, f6, f7] : Fin 8 → (S32x1.Idx → α)) n (ix2 p (0 : Fin 1)) :=
  concatenate_ofFn_unit_apply (t := S32x8) (s₁ := S32x1) (1 : Fin 2) (![f0, f1, f2, f3, f4, f5, f6, f7] : Fin 8 → (S32x1.Idx → α))
    concatenates_S32x1_S32x1_S32x1_S32x1_S32x1_S32x1_S32x1_S32x1_S32x8_d1 rfl rfl (ix2 p n) n rfl (ix2 p (0 : Fin 1))
    (fun b hb => by
      match b with
      | ⟨0, _⟩ => rfl
      | ⟨1, _⟩ => exact absurd rfl hb)

/-- THE BLOCK: entry (p, q) of what the body stores is the log-probability, under row `p` of the logits, of the
    token id at (p, q). -/
theorem block_apply (x0 : Vec Ideal S32x50257 .f32) (x1 : Vec Ideal S32x8 .i32) (p : Fin 32) (q : Fin 8) :
    out0_2 x0 x1 (ix2 p q) = logprob (rowOf x0 p) (x1 (ix2 p q)) := by
  unfold out0_2
  rw [View.canon_unit_zero hz]
  simp only [View.ld_unit_zero (S := S32x50257) hz, View.ld_unit_zero (S := S32x8) hz]
  unfold k0_pay1
  dsimp only
  refine (concat8_apply _ _ _ _ _ _ _ _ p q).trans ?_
  match q with
  | ⟨0, _⟩ =>
    show k0_pay5 x0 x1 (ix2 p (0 : Fin 1)) = _
    unfold k0_pay5; dsimp only; rw [pay2_eq, pay4_eq]
    exact column_apply ![0, 0] slices_S32x8_o0_0_S32x1 _ rfl rfl x0 x1 _ _ p
  | ⟨1, _⟩ =>
    show k0_pay6 x0 x1 (ix2 p (0 : Fin 1)) = _
    unfold k0_pay6; dsimp only; rw [pay2_eq, pay4_eq]
    exact column_apply ![0, 1] slices_S32x8_o0_1_S32x1 _ rfl rfl x0 x1 _ _ p
  | ⟨2, _⟩ =>
    show k0_pay7 x0 x1 (ix2 p (0 : Fin 1)) = _
    unfold k0_pay7; dsimp only; rw [pay2_eq, pay4_eq]
    exact column_apply ![0, 2] slices_S32x8_o0_2_S32x1 _ rfl rfl x0 x1 _ _ p
  | ⟨3, _⟩ =>
    show subf (k0_pay8 x0 x1) (k0_pay3 x0) (ix2 p (0 : Fin 1)) = _
    unfold k0_pay8; dsimp only; rw [pay2_eq, pay4_eq]
    exact column_apply ![0, 3] slices_S32x8_o0_3_S32x1 _ rfl rfl x0 x1 _ _ p
  | ⟨4, _⟩ =>
    rw [pay2_eq, pay4_eq]
    exact column_apply ![0, 4] slices_S32x8_o0_4_S32x1 _ rfl rfl x0 x1 _ _ p
  | ⟨5, _⟩ =>
    rw [pay2_eq, pay4_eq]
    exact column_apply ![0, 5] slices_S32x8_o0_5_S32x1 _ rfl rfl x0 x1 _ _ p
  | ⟨6, _⟩ =>
    rw [pay2_eq, pay4_eq]
    exact column_apply ![0, 6] slices_S32x8_o0_6_S32x1 _ rfl rfl x0 x1 _ _ p
  | ⟨7, _⟩ =>
    rw [pay2_eq, pay4_eq]
    exact column_apply ![0, 7] slices_S32x8_o0_7_S32x1 _ rfl rfl x0 x1 _ _ p

end Cert.KernelIdeal.BlockValue

end
-- ==== Proof.KernelArray.lean ====
/-
  From blocks to the array: what the kernel's output array holds after the region.

  The grid has 128 points; point `t` stages rows 32·t … 32·t + 31 of the [4096, 50257] logits and of the
  [4096, 8] ids, and writes back rows 32·t … 32·t + 31 of the [4096, 8] result.  By the block's reading, row `r` of
  the result holds, in column `k`, the log-probability under row `r` of the logits of the id at (r, k); the 128
  blocks tile the array, so this holds of every entry.
-/
import proofs.«429530_j76828374991742_1_alg».proof.Proof.Gen.KernelIdeal.Frame
import proofs.«429530_j76828374991742_1_alg».proof.Proof.KernelBlock
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.StudentLogprob Cert.KernelIdeal.BlockValue
open Idealize.ShloMosaic.Pipeline (Dat)

variable (m : (ℓ : Loc nD τ sig) → Buf (Elt Ideal) ℓ)

/-- The result array as one function of the [4096, 50257] logits and the [4096, 8] ids: entry (r, k) is the
    log-probability, under row `r` of the logits, of the id at (r, k). -/
def rowsSpec (a0 : FVec Ideal S4096x50257 .f32) (a1 : IVec S4096x8 32) : FVec Ideal S4096x8 .f32 :=
  fun i => logprob (fun v => a0 (ix2 (i 0) v)) (a1 i)

/-- The printed index maps, decided over the grid: the three windows move together along the rows and stay at
    block 0 along the other axis. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 127 :=
  (by decide +kernel : ∀ t : Fin grid0.N, _)

/-- Every row block is some point's. -/
theorem idx_onto : ∀ q0 : Fin 128, ∃ t : Fin cfg0.N, win0_2.index t = ![q0.val, 0] :=
  (by decide +kernel : ∀ q0 : Fin 128, ∃ t : Fin grid0.N, win0_2.index t = ![q0.val, 0])

/-- WHAT POINT `t` WRITES BACK is block `t` of `rowsSpec` of the two arrays as the region finds them. -/
theorem flushed_eq (c : Dev nD) (t : Fin cfg0.N) :
    (dats m 0 c).flushed 2 t
      = ((cfg0.win 2).blk t).view.read (Elt Ideal) (rowsSpec (V m c main_v0) (V m c main_v1)) := by
  show (cfg0.win 2).cut (grid0.coords t) ((dats m 0 c).after 2 t) = _
  rw [after0_2]
  obtain ⟨e0, e1, e2, e3, e4, e5⟩ := idx_facts t
  funext j
  obtain ⟨p, q, rfl⟩ : ∃ (p : Fin 32) (q : Fin 8), j = ix2 p q := ⟨j 0, j 1, eq_ix2 j⟩
  show out0_2 (iblk m c 0 t) (iblk m c 1 t) (ix2 p q)
      = rowsSpec (V m c main_v0) (V m c main_v1) (((cfg0.win 2).blk t).view.emb (ix2 p q))
  refine (block_apply (iblk m c 0 t) (iblk m c 1 t) p q).trans ?_
  unfold rowsSpec
  have hrow : rowOf (iblk m c 0 t) p
      = fun v : Fin 50257 => V m c main_v0 (ix2 ((((cfg0.win 2).blk t).view.emb (ix2 p q)) 0) v) := by
    funext v
    show V m c main_v0 (((cfg0.win 0).blk t).view.emb (ix2 p v)) = _
    refine congrArg (V m c main_v0) ?_
    funext a; apply Fin.ext
    match a with
    | ⟨0, _⟩ =>
      show win0_0.index t (0 : Fin 2) * 32 + 1 * p.val = win0_2.index t (0 : Fin 2) * 32 + 1 * p.val
      omega
    | ⟨1, _⟩ =>
      show win0_0.index t (1 : Fin 2) * 50257 + 1 * v.val = v.val
      omega
  have hid : iblk m c 1 t (ix2 p q) = V m c main_v1 (((cfg0.win 2).blk t).view.emb (ix2 p q)) := by
    show V m c main_v1 (((cfg0.win 1).blk t).view.emb (ix2 p q)) = _
    refine congrArg (V m c main_v1) ?_
    funext a; apply Fin.ext
    match a with
    | ⟨0, _⟩ =>
      show win0_1.index t (0 : Fin 2) * 32 + 1 * p.val = win0_2.index t (0 : Fin 2) * 32 + 1 * p.val
      omega
    | ⟨1, _⟩ =>
      show win0_1.index t (1 : Fin 2) * 8 + 1 * q.val = win0_2.index t (1 : Fin 2) * 8 + 1 * q.val
      omega
  rw [hrow, hid]

/-- An index of the array is in point `t`'s block iff each coordinate is in the block's range on its axis. -/
theorem mem_blk (t : Fin cfg0.N) (i : S4096x8.Idx) :
    i ∈ ((cfg0.win 2).blk t).view.set
      ↔ ∀ a : Fin 2, win0_2.index t a * S32x8.size a ≤ (i a).val ∧ (i a).val < win0_2.index t a * S32x8.size a + S32x8.size a := by
  show i ∈ ((View.whole main_v2).slice (win0_2.rect t)).set ↔ _
  rw [View.set_slice_whole, Rect.mem_set_unit]
  exact Iff.rfl

/-- The blocks cover the array: row `r` lies in the block of point `r / 32`. -/
theorem cover (i : S4096x8.Idx) : ∃ t : Fin cfg0.N, (cfg0.win 2).flush t = true ∧ i ∈ ((cfg0.win 2).blk t).view.set := by
  have hi0 : (i 0).val < 4096 := (i 0).isLt
  have hi1 : (i 1).val < 8 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 8 ≤ (i 1).val ∧ (i 1).val < win0_2.index t (1 : Fin 2) * 8 + 8
    omega

/-- THE ARRAY after the region: `rowsSpec` of the two arrays the region was entered with. -/
theorem final (c : Dev nD) : (dats m 0 c).arrAt 2 cfg0.N = rowsSpec (V m c main_v0) (V m c main_v1) :=
  (dats m 0 c).arrAt_eq_of_cover 2 (rowsSpec (V m c main_v0) (V m c main_v1)) (fun t _ => flushed_eq m c t) cover

end Cert.KernelIdeal.ArrayValue

end
-- ==== Proof.KernelHost.lean ====
/-
  The kernel program's host side: what the region finds and what @main makes of what it leaves.

  Before the region @main reshapes the [2, 2048, 50257] logits to [4096, 50257] and the [2, 2048, 8] ids to
  [4096, 8].  After it, @main reshapes the region's [4096, 8] result to [2, 2048, 8] and computes from it, the
  teacher's log-probabilities and the mask the masked mean of the KL terms — the same operations, in the same order
  and with the same literals, as the reference's last stretch.  The tail is stated for an arbitrary valuation of
  the buffers it starts from, then read at the valuation the region leaves.
-/
import proofs.«429530_j76828374991742_1_alg».proof.Proof.Gen.KernelIdeal.Frame
import Idealize.ShloMosaic.Lib.StableHlo.Run
import Idealize.ShloMosaic.Lib.Pipeline.Value

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The result as a function of the student's log-probabilities `st`, the teacher's log-probabilities `x3` and the mask
    `x4`: the teacher's renormalized probabilities `tp = exp x3 / max(1e-8, Σ exp x3)`, the per-token sums of
    `tp · (log tp − st)`, their masked sums over the sequence divided by `max(1, Σ mask)`, and the mean over the batch. -/
def tailK (st x3 : (⟨S2x2048x8, .f32⟩ : BufTy).Contents (Elt F)) (x4 : (⟨S2x2048, .f32⟩ : BufTy).Contents (Elt F)) :
    (⟨S_, .f32⟩ : BufTy).Contents (Elt F) :=
  let tp : (⟨S2x2048x8, .f32⟩ : BufTy).Contents (Elt F) :=
    Host.divf (Host.exp x3)
      (broadcastInDim S2x2048x8 ![0, 1, 2] bcast_S2x2048x1_S2x2048x8_0_1_2
        (maximumf (broadcastInDim S2x2048x1 ![] bcast_S_S2x2048x1 (id (constant S_ .f32 0x322BCC77#32)))
          (broadcastInDim S2x2048x1 ![0, 1] bcast_S2x2048_S2x2048x1_0_1
            (Host.reduceAdd (Host.exp x3) (constant S_ .f32 0x00000000#32) reducesTo_S2x2048x8_S2x2048_d2 h_S_))))
  Host.divf
    (Host.reduceAdd
      (Host.divf
        (Host.reduceAdd
          (mulf (Host.reduceAdd (mulf tp (subf (Host.log tp) st)) (constant S_ .f32 0x00000000#32)
            reducesTo_S2x2048x8_S2x2048_d2 h_S_) x4)
          (constant S_ .f32 0x00000000#32) reducesTo_S2x2048_S2_d1 h_S_)
        (maximumf (broadcastInDim S2 ![] bcast_S_S2 (id (constant S_ .f32 0x3F800000#32)))
          (Host.reduceAdd x4 (constant S_ .f32 0x00000000#32) reducesTo_S2x2048_S2_d1 h_S_)))
      (constant S_ .f32 0x00000000#32) reducesTo_S2_S_d0 h_S_)
    (constant S_ .f32 0x40000000#32)

/-- The 30 host operations after the region, from any valuation: the result buffer holds `tailK` of the region's
    result array reshaped to [2, 2048, 8], the teacher's log-probabilities and the mask. -/
theorem after_tail (W : Valuation τ sig (Elt F)) :
    after (List.flatten [hostOps1, hostOps1_1, hostOps1_2, hostOps1_3, hostOps1_4]) W (Proc.devRef .tc main_v20)
      = tailK (F := F) (shapeCast S2x2048x8 (W (Proc.devRef .tc main_v2)) shapeCasts_S4096x8_S2x2048x8)
          (W (Proc.devRef .tc main_arg3)) (W (Proc.devRef .tc main_arg4)) := by
  simp only [hostOps1, hostOps1_1, hostOps1_2, hostOps1_3, hostOps1_4, List.flatten_cons, List.flatten_nil, List.append_nil,
    List.cons_append, List.nil_append]
  after_results_simp <;> rfl

variable (m : (ℓ : Loc nD τ sig) → Buf (Elt F) ℓ)

/-- The region finds the logits reshaped to [4096, 50257] … -/
theorem V_main_v0 (c : Dev nD) :
    V m c main_v0 = shapeCast S4096x50257 (m ((c : Thread nD τ).loc main_arg0)) shapeCasts_S2x2048x50257_S4096x50257 := by
  show after hostOps0 (fun b => m (c, b)) (Proc.devRef .tc main_v0) = _
  after_results
  rfl

/-- … and the ids reshaped to [4096, 8]. -/
theorem V_main_v1 (c : Dev nD) :
    V m c main_v1 = shapeCast S4096x8 (m ((c : Thread nD τ).loc main_arg2)) shapeCasts_S2x2048x8_S4096x8 := by
  show after hostOps0 (fun b => m (c, b)) (Proc.devRef .tc main_v1) = _
  after_results
  rfl

/-- @main's result after the region and the host tail, from the array the region leaves. -/
theorem result_eq (c : Dev nD) :
    Pipeline.afterTail₀ cfgs (dats m) 0 (V0 m) [hostOps1, hostOps1_1, hostOps1_2, hostOps1_3, hostOps1_4] c main_v20
      = tailK (F := F) (shapeCast S2x2048x8 ((dats m 0 c).arrAt 2 cfg0.N) shapeCasts_S4096x8_S2x2048x8)
          (m ((c : Thread nD τ).loc main_arg3)) (m ((c : Thread nD τ).loc main_arg4)) := by
  unfold Pipeline.afterTail₀
  rw [after_tail]
  rw [Pipeline.withArrays_arr spec0 launch0.win.arr_inj c _ _ 2,
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4))]
  rw [show V0 m c (Proc.devRef .tc main_arg3) = m ((c : Thread nD τ).loc main_arg3) from V_main_arg3 m c,
    show V0 m c (Proc.devRef .tc main_arg4) = m ((c : Thread nD τ).loc main_arg4) from V_main_arg4 m c]

end Cert.KernelIdeal.HostValue

end
-- ==== Proof.RefValue.lean ====
/-
  The reference's student log-probabilities, entry by entry.

  For logits `x0 : [2, 2048, 50257]` and ids `x2 : [2, 2048, 8]` the reference computes `log_softmax (x0 / 1)` along the
  vocabulary and gathers, per (b, t, k), its entry at the id `x2 b t k` — wrapped by the vocabulary size if negative,
  replaced by a fill value if still out of range.  When every id lies in [0, 50257) nothing is wrapped and nothing is
  filled, the gather reads lane `x2 b t k` of row (b, t), and for a row of real numbers the entry read is the
  specification's `logprob` of that row at that id.
-/
import proofs.«429530_j76828374991742_1_alg».proof.Proof.RefRead
import proofs.«429530_j76828374991742_1_alg».proof.Proof.Spec
import Idealize.ShloMosaic.Lib.ValueIdx
import Idealize.ShloMosaic.Lib.Affine
import Idealize.ShloMosaic.Lib.StableHlo.Predicate
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.ReadP
open Cert.StudentLogprob RealClosure
open scoped BigOperators

variable (x0 : (⟨S2x2048x50257, .f32⟩ : BufTy).Contents (Elt Ideal)) (x2 : (⟨S2x2048x8, .i32⟩ : BufTy).Contents (Elt Ideal))

/-- Row (b, t) of the logits. -/
abbrev rowAt (b : Fin 2) (t : Fin 2048) : Fin 50257 → EReal := fun v => x0 (ix3 b t v)

/-! ## Two general facts -/

/-- A fold by `and` of ones from one is one. -/
theorem fold_andi_one {ι : Type} [DecidableEq ι] (s : Finset ι) (f : ι → BitVec 1) (hf : ∀ i ∈ s, f i = 1#1) :
    s.fold IntOp.andi 1#1 f = 1#1 := by
  induction s using Finset.induction_on with
  | empty => rfl
  | insert a s ha ih =>
    rw [Finset.fold_insert ha, hf a (Finset.mem_insert_self a s), ih fun i hi => hf i (Finset.mem_insert_of_mem hi)]
    decide

theorem toInt_zero32 : (0#32 : BitVec 32).toInt = 0 := by decide

/-- THE GATHER read at (b, t, k): lane `w` of row (b, t) of the operand, where `w` is the start index read signed
    and clamped into the vocabulary. -/
theorem gather_apply (lp : S2x2048x50257.Idx → EReal) (idx : IVec S2x2048x8x1 32) (b : Fin 2) (t : Fin 2048) (k : Fin 8)
    (w : Fin 50257) (hw : w.val = min (idx (ix4 b t k (0 : Fin 1))).toInt.toNat 50256) :
    Host.gather gather_S2x2048x50257_S2x2048x8x1_S2x2048x8_n_2_01_01_2_3_111 lp idx (ix3 b t k) = lp (ix3 b t w) := by
  unfold Host.gather
  refine congrArg lp ?_
  funext a
  refine Fin.ext ?_
  show gather_S2x2048x50257_S2x2048x8x1_S2x2048x8_n_2_01_01_2_3_111.start (ix3 b t k) idx a
      + gather_S2x2048x50257_S2x2048x8x1_S2x2048x8_n_2_01_01_2_3_111.batchCoord (ix3 b t k) a
      + gather_S2x2048x50257_S2x2048x8x1_S2x2048x8_n_2_01_01_2_3_111.offCoord (ix3 b t k) a = _
  match a with
  | ⟨0, _⟩ =>
    simp [GatherDims.start, GatherDims.offCoord, GatherDims.batchCoord, GatherDims.siCoord,
      gather_S2x2048x50257_S2x2048x8x1_S2x2048x8_n_2_01_01_2_3_111]
    rfl
  | ⟨1, _⟩ =>
    simp [GatherDims.start, GatherDims.offCoord, GatherDims.batchCoord, GatherDims.siCoord,
      gather_S2x2048x50257_S2x2048x8x1_S2x2048x8_n_2_01_01_2_3_111]
    rfl
  | ⟨2, _⟩ =>
    have hs : gather_S2x2048x50257_S2x2048x8x1_S2x2048x8_n_2_01_01_2_3_111.siIdx (ix3 b t k) ⟨0, by decide⟩
        = ix4 b t k (0 : Fin 1) :=
      funext fun c => Fin.ext (by match c with | ⟨0, _⟩ => rfl | ⟨1, _⟩ => rfl | ⟨2, _⟩ => rfl | ⟨3, _⟩ => rfl)
    show min (idx (gather_S2x2048x50257_S2x2048x8x1_S2x2048x8_n_2_01_01_2_3_111.siIdx (ix3 b t k) ⟨0, by decide⟩)).toInt.toNat
        (50257 - 1) + 0 + 0 = w.val
    rw [hs, hw]
    rfl

/-! ## The log-softmax, read at an entry -/

theorem const_one_apply (i : S2x2048x50257.Idx) : val_main_v0 (F := Ideal) i = Ideal.ofBits .f32 0x3F800000#32 :=
  (val_main_v0_apply i).trans (val_main_cst_apply _)

/-- The logits divided by the constant one are the logits. -/
theorem scaled_apply (i : S2x2048x50257.Idx) : val_main_v1 (F := Ideal) x0 i = x0 i :=
  (val_main_v1_apply x0 i).trans
    ((congrArg (Ideal.div (x0 i)) (const_one_apply i)).trans (div_one_f32 (x0 i)))

theorem lift_eq (b : Fin 2) (t : Fin 2048) (k : Fin 50257)
    (h : S2x2048x50257.Reduces [2] S2x2048) : h.lift (ix2 b t) k = ix3 b t k :=
  funext fun a => Fin.ext (by match a with | ⟨0, _⟩ => rfl | ⟨1, _⟩ => rfl | ⟨2, _⟩ => rfl)

theorem neg_inf_apply (i : S2x2048.Idx) : val_main_call0_v1 (F := Ideal) i = ⊥ :=
  (val_main_call0_v1_apply i).trans ((val_main_call0_cst_0_apply _).trans ofBits_neg_inf_f32)

/-- The maximum of row (b, t) as the reference's reduce computes it. -/
theorem rowmax_apply (b : Fin 2) (t : Fin 2048) :
    val_main_call0_v0 (F := Ideal) x0 (ix2 b t) = rowMax (rowAt x0 b t) := by
  unfold val_main_call0_v0
  have hR : S2x2048x50257.Reduces [2] S2x2048 := by decide
  refine (Host.reduce_eq_fold_single FloatOps.maximumf _ _ reducesTo_S2x2048x50257_S2x2048_d2 hR h_S_ (ix2 b t)).trans ?_
  show (Finset.univ : Finset (Fin 50257)).fold max (Ideal.ofBits .f32 0xFF800000#32)
      (fun k : Fin 50257 => val_main_v1 (F := Ideal) x0 (hR.lift (ix2 b t) k)) = _
  rw [ofBits_neg_inf_f32]
  unfold rowMax
  congr 1
  funext k
  exact (congrArg (val_main_v1 (F := Ideal) x0) (lift_eq b t k hR)).trans (scaled_apply x0 _)

/-- The shift the reference subtracts: the row maximum joined once more with −∞. -/
theorem shift_apply (b : Fin 2) (t : Fin 2048) :
    val_main_call0_v2 (F := Ideal) x0 (ix2 b t) = max ⊥ (rowMax (rowAt x0 b t)) :=
  (val_main_call0_v2_apply x0 (ix2 b t)).trans
    (congrArg₂ (fun a c : EReal => max a c) (neg_inf_apply _) (rowmax_apply x0 b t))

/-- The shifted row. -/
theorem shifted_apply (b : Fin 2) (t : Fin 2048) (v : Fin 50257) :
    val_main_call0_v5 (F := Ideal) x0 (ix3 b t v) = x0 (ix3 b t v) - max ⊥ (rowMax (rowAt x0 b t)) := by
  have e : idx_main_call0_v3 (idx_main_call0_v4 (ix3 b t v)) = ix2 b t :=
    funext fun a => Fin.ext (by match a with | ⟨0, _⟩ => rfl | ⟨1, _⟩ => rfl)
  refine (val_main_call0_v5_apply x0 _).trans ?_
  refine congrArg₂ (fun a c : EReal => a - c) (scaled_apply x0 _) ?_
  refine (val_main_call0_v4_apply x0 _).trans ((val_main_call0_v3_apply x0 _).trans ?_)
  exact (congrArg (val_main_call0_v2 (F := Ideal) x0) e).trans (shift_apply x0 b t)

/-- The sum of the shifted row's exponentials. -/
theorem expsum_apply (b : Fin 2) (t : Fin 2048) :
    val_main_call0_v7 (F := Ideal) x0 (ix2 b t) = 0 + shiftSum (rowAt x0 b t) (max ⊥ (rowMax (rowAt x0 b t))) := by
  refine (val_main_call0_v7_apply x0 (ix2 b t)).trans ?_
  refine congrArg₂ (fun a c : EReal => a + c) ?_ ?_
  · exact Ideal.ofBits_zero_f32
  · unfold shiftSum
    refine Finset.sum_congr rfl fun k _ => ?_
    have e : idx_main_call0_v7 (ix2 b t) k = ix3 b t k :=
      funext fun a => Fin.ext (by match a with | ⟨0, _⟩ => rfl | ⟨1, _⟩ => rfl | ⟨2, _⟩ => rfl)
    exact (congrArg (val_main_call0_v6 (F := Ideal) x0) e).trans
      ((val_main_call0_v6_apply x0 _).trans ((Ideal.hostUnary_exp_def _).trans (congrArg Ideal.exp (shifted_apply x0 b t k))))

/-- THE LOG-SOFTMAX at lane `w` of row (b, t). -/
theorem logsoftmax_apply (b : Fin 2) (t : Fin 2048) (w : Fin 50257) :
    val_main_v2 (F := Ideal) x0 (ix3 b t w)
      = (x0 (ix3 b t w) - max ⊥ (rowMax (rowAt x0 b t)))
          - Ideal.log (shiftSum (rowAt x0 b t) (max ⊥ (rowMax (rowAt x0 b t)))) := by
  have e : idx_main_call0_v8 (idx_main_call0_v10 (ix3 b t w)) = ix2 b t :=
    funext fun a => Fin.ext (by match a with | ⟨0, _⟩ => rfl | ⟨1, _⟩ => rfl)
  refine (val_main_v2_apply x0 _).trans ?_
  refine congrArg₂ (fun a c : EReal => a - c) (shifted_apply x0 b t w) ?_
  refine (val_main_call0_v10_apply x0 _).trans ((val_main_call0_v9_apply x0 _).trans ?_)
  refine (Ideal.hostUnary_log_def _).trans (congrArg Ideal.log ?_)
  refine (val_main_call0_v8_apply x0 _).trans ?_
  refine (congrArg (val_main_call0_v7 (F := Ideal) x0) e).trans ((expsum_apply x0 b t).trans (zero_add _))

/-! ## The ids: no wrap and no fill inside the vocabulary -/

theorem zero_ids_apply (i : S2x2048x8.Idx) : val_main_call1_v0 (F := Ideal) i = 0#32 :=
  (val_main_call1_v0_apply i).trans (val_main_call1_c_apply _)

/-- An id that is not negative is not wrapped. -/
theorem wrapped_apply (i : S2x2048x8.Idx) (h0 : 0 ≤ (x2 i).toInt) : val_main_call1_v4 (F := Ideal) x2 i = x2 i := by
  refine (val_main_call1_v4_apply x2 i).trans ?_
  unfold Scalar.select
  rw [if_neg]
  intro hc
  have hc' : IntOp.cmpi .slt (x2 i) (val_main_call1_v0 (F := Ideal) i) = 1#1 := hc
  rw [zero_ids_apply] at hc'
  have hlt : (x2 i).toInt < (0#32 : BitVec 32).toInt := IntOp.cmpi_slt.1 hc'
  rw [toInt_zero32] at hlt
  omega

variable (hid : ∀ i : S2x2048x8.Idx, 0 ≤ (x2 i).toInt ∧ (x2 i).toInt < 50257)
include hid

/-- The start indices, a [2, 2048, 8, 1] reshape of the (unwrapped) ids. -/
theorem starts_apply (j : S2x2048x8x1.Idx) : val_main_call1_v5 (F := Ideal) x2 j = x2 (idx_main_call1_v5 j) :=
  (val_main_call1_v5_apply x2 j).trans (wrapped_apply x2 _ (hid _).1)

/-- Every start index passes the range test, so the mask is one everywhere. -/
theorem inrange_apply (i : S2x2048x8.Idx) : val_main_call1_v12 (F := Ideal) x2 i = 1#1 := by
  unfold val_main_call1_v12
  have hR : S2x2048x8x1.Reduces [3] S2x2048x8 := by decide
  refine (Host.reduce_eq_fold_single IntOp.andi _ _ reducesTo_S2x2048x8x1_S2x2048x8_d3 hR h_S_ i).trans ?_
  refine fold_andi_one _ _ fun k _ => ?_
  show val_main_call1_v11 (F := Ideal) x2 (hR.lift i k) = 1#1
  refine (val_main_call1_v11_apply x2 _).trans ?_
  refine IntOp.andi_eq_one.2 ⟨?_, ?_⟩
  · refine (val_main_call1_v7_apply x2 _).trans ?_
    refine IntOp.cmpi_sge.2 ?_
    rw [show val_main_call1_v6 (F := Ideal) (hR.lift i k) = 0#32 from
      (val_main_call1_v6_apply _).trans (val_main_call1_c_2_apply _), toInt_zero32, starts_apply x2 hid]
    exact (hid _).1
  · refine (val_main_call1_v10_apply x2 _).trans ?_
    refine IntOp.cmpi_sle.2 ?_
    rw [show val_main_call1_v9 (F := Ideal) (hR.lift i k) = 50256#32 from
      (val_main_call1_v9_apply _).trans ((val_main_call1_v8_apply _).trans (val_main_call1_c_1_apply _)),
      StableHlo.Predicate.toInt_ofNat_small 50256 (by norm_num), starts_apply x2 hid]
    have := (hid (idx_main_call1_v5 (hR.lift i k))).2
    omega

variable (hx : ∀ i : S2x2048x50257.Idx, IsReal (x0 i))
include hx

/-- THE REFERENCE'S STUDENT LOG-PROBABILITY at (b, t, k), for real logits and ids inside the vocabulary: the
    specification's, of row (b, t) at the id. -/
theorem student_apply (b : Fin 2) (t : Fin 2048) (k : Fin 8) :
    val_main_v3 (F := Ideal) x0 x2 (ix3 b t k) = logprob (rowAt x0 b t) (x2 (ix3 b t k)) := by
  obtain ⟨h0, h1⟩ := hid (ix3 b t k)
  have hnat : (x2 (ix3 b t k)).toInt = ((x2 (ix3 b t k)).toNat : Int) := by
    have hlt := (x2 (ix3 b t k)).isLt
    rw [BitVec.toInt_eq_toNat_cond] at h0 ⊢
    split_ifs at h0 ⊢ with hc
    · rfl
    · omega
  have hw : (x2 (ix3 b t k)).toNat < 50257 := by omega
  have hsrc : idx_main_call1_v5 (ix4 b t k (0 : Fin 1)) = ix3 b t k :=
    funext fun a => Fin.ext (by
      have hb := b.isLt; have ht := t.isLt; have hk := k.isLt
      match a with
      | ⟨0, _⟩ => show (((b.val * 2048 + t.val) * 8 + k.val) * 1 + 0) / 16384 = b.val; omega
      | ⟨1, _⟩ => show (((b.val * 2048 + t.val) * 8 + k.val) * 1 + 0) / 8 % 2048 = t.val; omega
      | ⟨2, _⟩ => show (((b.val * 2048 + t.val) * 8 + k.val) * 1 + 0) % 8 = k.val; omega)
  refine (val_main_v3_apply x0 x2 _).trans ?_
  rw [inrange_apply x2 hid]
  unfold Scalar.select
  rw [if_pos (show (1#1 : BitVec 1) = 1 from rfl)]
  unfold val_main_call1_v13
  refine (gather_apply _ _ b t k ⟨(x2 (ix3 b t k)).toNat, hw⟩ ?_).trans ?_
  · show (x2 (ix3 b t k)).toNat = min (val_main_call1_v5 (F := Ideal) x2 (ix4 b t k (0 : Fin 1))).toInt.toNat 50256
    rw [starts_apply x2 hid, hsrc, hnat, Int.toNat_natCast]
    omega
  · refine (logsoftmax_apply x0 b t _).trans ?_
    exact shifted_eq_logprob (fun v => hx (ix3 b t v)) (x2 (ix3 b t k)) hw

end Cert.ReferenceIdeal.RefValue

end
-- ==== Proof.Bridge.lean ====
/-
  The bridge: the two programs' student log-probabilities are one array, and the kernel program's run with its result named.

  The kernel program reshapes the logits [2, 2048, 50257] → [4096, 50257] and the ids [2, 2048, 8] → [4096, 8], fills a
  [4096, 8] array row by row, and reshapes it back to [2, 2048, 8].  Row-major reshapes keep the last axis and merge the
  first two, so row b·2048 + t of the reshaped logits is row (b, t), and entry (b, t, k) of the array reshaped back is
  entry (b·2048 + t, k).  Hence the kernel's student array is, entry by entry, `logprob` of row (b, t) at the id
  (b, t, k) — which is what the reference's is, for real logits and ids inside the vocabulary.
-/
import proofs.«429530_j76828374991742_1_alg».proof.Proof.KernelArray
import proofs.«429530_j76828374991742_1_alg».proof.Proof.KernelHost
import proofs.«429530_j76828374991742_1_alg».proof.Proof.RefValue
import Idealize.ShloMosaic.Lib.Pipeline.Value
import Idealize.ShloMosaic.Lib.ValueIdx

noncomputable section

namespace Cert.Proof.Bridge

open Idealize.ShloMosaic Idealize.ShloMosaic.TcCoe Idealize.ShloMosaic.ValueIdx Idealize.SL.Sem Cert.StudentLogprob RealClosure

/-- The kernel's student array, reshaped back, read at (b, t, k). -/
theorem rows_apply (x0 : FVec Ideal Cert.KernelIdeal.S2x2048x50257 .f32) (x2 : IVec Cert.KernelIdeal.S2x2048x8 32)
    (h1 : Cert.KernelIdeal.S2x2048x50257.ShapeCasts Cert.KernelIdeal.S4096x50257)
    (h2 : Cert.KernelIdeal.S2x2048x8.ShapeCasts Cert.KernelIdeal.S4096x8)
    (h3 : Cert.KernelIdeal.S4096x8.ShapeCasts Cert.KernelIdeal.S2x2048x8)
    (b : Fin 2) (t : Fin 2048) (k : Fin 8) :
    shapeCast Cert.KernelIdeal.S2x2048x8
        (Cert.KernelIdeal.ArrayValue.rowsSpec (shapeCast Cert.KernelIdeal.S4096x50257 x0 h1)
          (shapeCast Cert.KernelIdeal.S4096x8 x2 h2)) h3 (ix3 b t k)
      = logprob (fun v => x0 (ix3 b t v)) (x2 (ix3 b t k)) := by
  have hb := b.isLt
  have ht := t.isLt
  let r : Fin 4096 := ⟨b.val * 2048 + t.val, by omega⟩
  refine (shapeCast_apply _ h3 (ix3 b t k) (ix2 r k) ?_).trans ?_
  · rw [Shape.rowMajor_val_two, Shape.rowMajor_val_three]
    rfl
  · unfold Cert.KernelIdeal.ArrayValue.rowsSpec
    refine congrArg₂ logprob ?_ ?_
    · funext v
      refine shapeCast_apply x0 h1 (ix2 r v) (ix3 b t v) ?_
      rw [Shape.rowMajor_val_three, Shape.rowMajor_val_two]
      rfl
    · refine shapeCast_apply x2 h2 (ix2 r k) (ix3 b t k) ?_
      rw [Shape.rowMajor_val_three, Shape.rowMajor_val_two]
      rfl

/-- THE TWO STUDENT ARRAYS ARE ONE: for real logits and ids inside the vocabulary the reference's gathered
    log-softmax entries are the kernel's array reshaped back. -/
theorem student_eq (x0 : FVec Ideal Cert.KernelIdeal.S2x2048x50257 .f32) (x2 : IVec Cert.KernelIdeal.S2x2048x8 32)
    (h1 : Cert.KernelIdeal.S2x2048x50257.ShapeCasts Cert.KernelIdeal.S4096x50257)
    (h2 : Cert.KernelIdeal.S2x2048x8.ShapeCasts Cert.KernelIdeal.S4096x8)
    (h3 : Cert.KernelIdeal.S4096x8.ShapeCasts Cert.KernelIdeal.S2x2048x8)
    (hx : ∀ i, IsReal (x0 i)) (hid : ∀ i, 0 ≤ (x2 i).toInt ∧ (x2 i).toInt < 50257) :
    Cert.ReferenceIdeal.ReadP.val_main_v3 (F := Ideal) x0 x2
      = shapeCast Cert.KernelIdeal.S2x2048x8
          (Cert.KernelIdeal.ArrayValue.rowsSpec (shapeCast Cert.KernelIdeal.S4096x50257 x0 h1)
            (shapeCast Cert.KernelIdeal.S4096x8 x2 h2)) h3 := by
  funext i
  obtain ⟨b, t, k, rfl⟩ : ∃ (b : Fin 2) (t : Fin 2048) (k : Fin 8), i = ix3 b t k := ⟨i 0, i 1, i 2, eq_ix3 i⟩
  exact (Cert.ReferenceIdeal.RefValue.student_apply x0 x2 hid hx b t k).trans (rows_apply x0 x2 h1 h2 h3 b t k).symm

section KernelRun

open Cert.KernelIdeal Cert.KernelIdeal.Gen

variable (m : (ℓ : Loc nD τ sig) → Buf (Elt Ideal) ℓ) (ρ : Dev nD → PrngReg)

/-- The kernel program's run with its result NAMED: the host tail of the student array `rowsSpec` of the reshaped
    arguments, reshaped back; the arguments unchanged. -/
theorem kernel_run : θ_run defs (onTc (τ := τ) (main (F := Ideal))) ⟨m, fun _ => 0, ρ⟩ fun r => ∀ c : Dev nD,
      r.2.mem ((c.tc : Thread nD τ).loc main_v20)
        = Cert.KernelIdeal.HostValue.tailK (F := Ideal)
            (shapeCast S2x2048x8
              (Cert.KernelIdeal.ArrayValue.rowsSpec
                (shapeCast S4096x50257 (m ((c.tc : Thread nD τ).loc main_arg0)) shapeCasts_S2x2048x50257_S4096x50257)
                (shapeCast S4096x8 (m ((c.tc : Thread nD τ).loc main_arg2)) shapeCasts_S2x2048x8_S4096x8))
              shapeCasts_S4096x8_S2x2048x8)
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v20 (Pipeline.mem_restRefs_of main_v20 (by decide) (by decide))).trans
        ((Cert.KernelIdeal.HostValue.result_eq m c).trans (by
          rw [Cert.KernelIdeal.ArrayValue.final m c, Cert.KernelIdeal.HostValue.V_main_v0 m c,
            Cert.KernelIdeal.HostValue.V_main_v1 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end KernelRun

end Cert.Proof.Bridge

end
-- ==== Proof.lean ====
/-
  The certificate: the Pallas student-top-k log-probability kernel against its jnp reference, over the extended reals.

  Both programs compute the masked mean over the batch of the per-token KL terms
      Σ_k tp_k · (log tp_k − st_k),   tp = exp(lps) / max(1e-8, Σ_k exp(lps)),
  where `st` holds the student's log-probabilities of the teacher's top-8 token ids.  They differ only in how `st`
  is obtained.  The reference takes a log-softmax of the whole [2, 2048, 50257] array of logits and gathers eight
  entries per row.  The kernel reads each row once and produces, per id, the one-hot sum `Σ_v [v = id]·x_v` minus the
  row's normalizer `max + log Σ exp(x − max)`.  For a row of real numbers and an id inside the vocabulary the two are
  the same number (Proof/Spec.lean), so the two `st` arrays are one array (Proof/Bridge.lean), and the rest of both
  programs is one function of it (the same operations with the same literals, which are never evaluated).

  The statement carries two hypotheses on the inputs: every float input is finite, of which the proof uses the
  logits' finiteness (the law `a − (m + l) = (a − m) − l` fails at infinities), and every teacher token id lies in
  [0, 50257), the range of the axis it indexes (outside it the reference wraps a negative id or fills in NaN, while the
  kernel's one-hot sum is zero).

  The three frames: the two kernel programs' are generated whole; the reference's is its run (Proof/RefStages.lean)
  with the result dropped.  The idealization rewrote nothing, so `preserves` has nothing to state.
-/
import proofs.«429530_j76828374991742_1_alg».proof.Defs
import proofs.«429530_j76828374991742_1_alg».proof.Proof.Gen.Kernel
import proofs.«429530_j76828374991742_1_alg».proof.Proof.Gen.Kernel.Skeleton
import proofs.«429530_j76828374991742_1_alg».proof.Proof.Gen.Kernel.Launch
import proofs.«429530_j76828374991742_1_alg».proof.Proof.Gen.Kernel.Points
import proofs.«429530_j76828374991742_1_alg».proof.Proof.Gen.Kernel.Frame
import proofs.«429530_j76828374991742_1_alg».proof.Proof.Gen.KernelIdeal
import proofs.«429530_j76828374991742_1_alg».proof.Proof.Gen.KernelIdeal.Skeleton
import proofs.«429530_j76828374991742_1_alg».proof.Proof.Gen.KernelIdeal.Launch
import proofs.«429530_j76828374991742_1_alg».proof.Proof.Gen.KernelIdeal.Points
import proofs.«429530_j76828374991742_1_alg».proof.Proof.Gen.KernelIdeal.Frame
import proofs.«429530_j76828374991742_1_alg».proof.Proof.Gen.ReferenceIdeal
import proofs.«429530_j76828374991742_1_alg».proof.Proof.Gen.Pre_finite_inputs
import proofs.«429530_j76828374991742_1_alg».proof.Proof.RefStages
import proofs.«429530_j76828374991742_1_alg».proof.Proof.PreDecode
import proofs.«429530_j76828374991742_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The host tail is one function in both programs: the same operations, the same literals. -/
theorem tail_eq (st x3 : FVec Ideal Cert.KernelIdeal.S2x2048x8 .f32) (x4 : FVec Ideal Cert.KernelIdeal.S2x2048 .f32) :
    Cert.ReferenceIdeal.Stages.tailStage (F := Ideal) st x3 x4 = Cert.KernelIdeal.HostValue.tailK (F := Ideal) st x3 x4 := rfl

/-- From memories that agree on the arguments, under the precondition, both idealized programs end with the same
    result: the kernel program's run names it; the reference's run reaches it because the two student arrays are one
    (the logits real and the ids inside the vocabulary, both read off the precondition) and the tails are one function. -/
theorem algebraic : Cert.algebraic_KernelIdeal_ReferenceIdeal := by
  intro m ρ m' ρ' hpre hagree
  refine ⟨_, Cert.Proof.Bridge.kernel_run m ρ, ?_⟩
  refine (θ_run Cert.ReferenceIdeal.defs _ _).mono (fun _ h c => ⟨(h c).1.trans ?_, (h c).2⟩)
    (Cert.ReferenceIdeal.Stages.run (F := Ideal) m' ρ')
  obtain ⟨hx, hid⟩ := Cert.Pre_finite_inputs.Decode.decode _ _ _ _ _ _ (hpre c)
  rw [(hagree c).1, (hagree c).2.2.1, (hagree c).2.2.2.1, (hagree c).2.2.2.2.1]
  rw [Cert.ReferenceIdeal.Stages.val_main_v20_eq,
    Cert.Proof.Bridge.student_eq _ _ Cert.KernelIdeal.Facts₀.shapeCasts_S2x2048x50257_S4096x50257
      Cert.KernelIdeal.Facts₀.shapeCasts_S2x2048x8_S4096x8 Cert.KernelIdeal.Facts₀.shapeCasts_S4096x8_S2x2048x8 hx hid]
  exact tail_eq _ _ _

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
